-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S1600000 32) (main_arg2 : IVec S1600000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩

abbrev nBuf : Space → Nat
  | .hbm => 35
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S50000x128, .f32⟩
  | .hbm, ⟨18, _⟩ => ⟨S1600000x1, .i32⟩
  | .hbm, ⟨19, _⟩ => ⟨S50000x128, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S50000, .f32⟩
  | .hbm, ⟨24, _⟩ => ⟨S1600000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S1x128, .f32⟩
  | .hbm, ⟨34, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S50000x128, .f32⟩
  | .hbm, ⟨18, _⟩ => ⟨S1600000x1, .i32⟩
  | .hbm, ⟨19, _⟩ => ⟨S50000x128, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S50000, .f32⟩
  | .hbm, ⟨24, _⟩ => ⟨S1600000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S128x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.BlockEntry.lean ====
/-
  What the kernel body stores, read at one entry of its 2000 × 128 output block.

  The body loads a block of 2000 feature rows `x`, the matching block of neighbour means `y`, both weight matrices
  whole and both biases as 1 × 128 rows.  At the extended reals a change of float format is the identity, a product
  into a zero accumulator is a plain sum of products, and the transposed weight matrix read at `(k, q)` is the
  weight matrix at `(q, k)`; a 1 × 128 row broadcast over 2000 rows reads, at `(p, q)`, the row at `(0, q)`.  So the
  stored value at `(p, q)` is

      (∑ₖ x[p,k] · Ws[q,k] + bs[0,q])  +  (∑ₖ y[p,k] · Wn[q,k] + bn[0,q]).
-/
import proofs.«139336_j15977278341798_1_alg».proof.Proof.Gen.KernelIdeal.Skeleton
import proofs.«139336_j15977278341798_1_alg».proof.Proof.LibPlainMatmul
import Idealize.ShloMosaic.Lib.Pipeline.Value
import Idealize.ShloMosaic.Lib.ValueLayout
import Idealize.ShloMosaic.Lib.ValueIdx

noncomputable section

namespace Cert.KernelIdeal.BlockEntry

open Cert.KernelIdeal Cert.KernelIdeal.Gen Idealize.ShloMosaic Idealize.ShloMosaic.ValueIdx

/-- One linear layer of the body at an entry: the block's row `p` against row `q` of the weight matrix, plus the
    bias row at `q`. -/
theorem lin_entry (x : FVec Ideal S2000x128 .f32) (W : FVec Ideal S128x128 .f32) (b : FVec Ideal S1x128 .f32)
    (p : Fin 2000) (q : Fin 128) :
    addf (matmul dot_S2000x128_S128x128_S2000x128_1_0_0_1_n_n none (truncf .bf16 x bitsLt_bf16_f32)
        (transpose S128x128 [1, 0] (truncf .bf16 W bitsLt_bf16_f32) transposes_S128x128_p1_0_S128x128)
        (constant S2000x128 .f32 0x00000000#32))
      (broadcastTo S2000x128 (shapeCast S1x128 b shapeCasts_S1x128_S1x128) broadcasts_S1x128_S2000x128) (ix2 p q)
    = ∑ k : Fin 128, x (ix2 p k) * W (ix2 q k) + b (ix2 0 q) := by
  have hprod : matmul dot_S2000x128_S128x128_S2000x128_1_0_0_1_n_n none (truncf .bf16 x bitsLt_bf16_f32)
        (transpose S128x128 [1, 0] (truncf .bf16 W bitsLt_bf16_f32) transposes_S128x128_p1_0_S128x128)
        (constant S2000x128 .f32 0x00000000#32) (ix2 p q) = ∑ k : Fin 128, x (ix2 p k) * W (ix2 q k) := by
    refine (Cert.PlainMatmul.matmul_plain_zero_apply (M := 2000) (K := 128) (N := 128) _ _ none p q).trans ?_
    refine Finset.sum_congr rfl fun k _ => ?_
    rw [transpose_ix2_apply]
    rfl
  have hbias : broadcastTo S2000x128 (shapeCast S1x128 b shapeCasts_S1x128_S1x128) broadcasts_S1x128_S2000x128 (ix2 p q)
      = b (ix2 0 q) := by
    rw [shapeCast_self]
    exact broadcastTo_apply b broadcasts_S1x128_S2000x128 (ix2 p q) (ix2 0 q) (fun a => match a with
      | ⟨0, _⟩ => by show (0 : Nat) = if (1 : Nat) = 1 then 0 else p.val; rw [if_pos rfl]
      | ⟨1, _⟩ => by show q.val = if (128 : Nat) = 1 then 0 else q.val; rw [if_neg (by decide)])
  rw [addf_apply, hprod, hbias]

/-- The body's stored value at entry `(p, q)` of the block. -/
theorem pay_entry (x y : FVec Ideal S2000x128 .f32) (Ws Wn : FVec Ideal S128x128 .f32) (bs bn : FVec Ideal S1x128 .f32)
    (p : Fin 2000) (q : Fin 128) :
    k0_pay1 (F := Ideal) x y Ws Wn bs bn (ix2 p q)
      = (∑ k : Fin 128, x (ix2 p k) * Ws (ix2 q k) + bs (ix2 0 q))
        + (∑ k : Fin 128, y (ix2 p k) * Wn (ix2 q k) + bn (ix2 0 q)) := by
  unfold k0_pay1
  rw [addf_apply, lin_entry, shapeCast_self, lin_entry]

end Cert.KernelIdeal.BlockEntry

end
-- ==== Proof.SageSpec.lean ====
/-
  The dense stage of a GraphSAGE layer with the mean aggregator, as ONE function of its arrays.

  With `feat` the node features (50000 nodes, 128 features each), `mean` the per-node mean of the in-neighbours'
  features (same shape), `Ws`, `Wn` the two 128 × 128 weight matrices (a ROW of a weight matrix belongs to one output
  feature) and `bs`, `bn` the two bias vectors, the layer's output at node `r`, output feature `c` is

      (∑ₖ feat[r,k] · Ws[c,k] + bs[c])  +  (∑ₖ mean[r,k] · Wn[c,k] + bn[c])

  on the extended reals: the self term and the neighbour term, each a row of the features against a row of its weight
  matrix plus its bias, added in this grouping.  Nothing here names a program.
-/
import Idealize.ShloMosaic.PureOps.Ideal
import Idealize.ShloMosaic.Lib.ValueIdx

noncomputable section

namespace Cert.Sage

open Idealize.ShloMosaic Idealize.ShloMosaic.ValueIdx

/-- One linear layer at one entry: row `r` of `x` against row `c` of `W`, plus `b[c]`. -/
def linEntry (x : FVec Ideal ⟨2, ![50000, 128]⟩ .f32) (W : FVec Ideal ⟨2, ![128, 128]⟩ .f32) (b : FVec Ideal ⟨1, ![128]⟩ .f32)
    (r : Fin 50000) (c : Fin 128) : Ideal .f32 :=
  ∑ k : Fin 128, x (ix2 r k) * W (ix2 c k) + b (ix1 c)

/-- The layer's output array: the self term plus the neighbour term, entry by entry. -/
def sageOut (feat mean : FVec Ideal ⟨2, ![50000, 128]⟩ .f32) (Ws : FVec Ideal ⟨2, ![128, 128]⟩ .f32) (bs : FVec Ideal ⟨1, ![128]⟩ .f32)
    (Wn : FVec Ideal ⟨2, ![128, 128]⟩ .f32) (bn : FVec Ideal ⟨1, ![128]⟩ .f32) : FVec Ideal ⟨2, ![50000, 128]⟩ .f32 :=
  fun i => linEntry feat Ws bs (i 0) (i 1) + linEntry mean Wn bn (i 0) (i 1)

/-- The output at the entry with coordinates `r`, `c`. -/
theorem sageOut_ix2 (feat mean : FVec Ideal ⟨2, ![50000, 128]⟩ .f32) (Ws : FVec Ideal ⟨2, ![128, 128]⟩ .f32) (bs : FVec Ideal ⟨1, ![128]⟩ .f32)
    (Wn : FVec Ideal ⟨2, ![128, 128]⟩ .f32) (bn : FVec Ideal ⟨1, ![128]⟩ .f32) (r : Fin 50000) (c : Fin 128) :
    sageOut feat mean Ws bs Wn bn (ix2 r c) = linEntry feat Ws bs r c + linEntry mean Wn bn r c := rfl

end Cert.Sage

end
-- ==== Proof.HostPrefix.lean ====
/-
  What the kernel's region finds in the three arrays the host computes before it.

  The neighbour means: every edge `e` carries the feature row of its source node `src[e]` (a negative index wraps
  once by the node count) to its destination; the rows arriving at a node are added, the arrivals are counted, and
  the sum is divided by the count, a count of zero replaced by one.  The two bias vectors are handed to the region
  as 1 × 128 rows: entry `(0, q)` of the row is entry `q` of the vector.
-/
import proofs.«139336_j15977278341798_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The per-node mean of the in-neighbours' feature rows, as the host computes it from the features, the edges'
    sources and the edges' destinations: gathered rows scatter-added by destination, over the scatter-added count of
    arrivals raised to at least one. -/
def neighbourMean (feat : FVec F S50000x128 .f32) (src dst : IVec S1600000 32) : FVec F S50000x128 .f32 :=
  Host.divf
    (Host.scatterAdd scatter_S50000x128_S1600000x1_S1600000x128_1_0_0_1
      (broadcastInDim S50000x128 ![] bcast_S_S50000x128 (constant S_ .f32 0x00000000#32))
      (broadcastInDim S1600000x1 ![0] bcast_S1600000_S1600000x1_0 dst)
      (Host.gather gather_S50000x128_S1600000x1_S1600000x128_1_0_n_n_0_1_1128 feat
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S1600000x1_S1600000_n_0_0_1
            (broadcastInDim S50000 ![] bcast_S_S50000 (constant S_ .f32 0x00000000#32))
            (broadcastInDim S1600000x1 ![0] bcast_S1600000_S1600000x1_0 dst)
            (broadcastInDim S1600000 ![] bcast_S_S1600000 (constant S_ .f32 0x3F800000#32)))
          (broadcastInDim S50000 ![] bcast_S_S50000 (constant S_ .f32 0x3F800000#32)))))

variable (m : (ℓ : Loc nD τ sig) → Buf (Elt F) ℓ)

set_option maxHeartbeats 2000000 in
/-- The region's second operand is the neighbour means of the launched features and edges. -/
theorem found_mean (c : Dev nD) : (V m c main_v18 : S50000x128.Idx → Elt F .f32)
    = neighbourMean (m ((c : Thread nD τ).loc main_arg0)) (m ((c : Thread nD τ).loc main_arg1)) (m ((c : Thread nD τ).loc main_arg2)) := by
  dsimp only [V, hostOps0]
  after_results_simp
  rfl

/-- A 128-vector recast as a 1 × 128 row, at `(0, q)`, is the vector at `q`. -/
theorem row_of_vector {α : Type} (v : S128.Idx → α) (q : Fin 128) :
    shapeCast S1x128 v shapeCasts_S128_S1x128 (ix2 0 q) = v (ix1 q) := by
  refine (shapeCast_addUnit_apply ![128] v shapeCasts_S128_S1x128 (ix2 0 q)).trans (congrArg v ?_)
  funext a
  match a with
  | ⟨0, _⟩ => rfl

/-- The region's fourth operand is the self bias as a row. -/
theorem found_bias_self (c : Dev nD) : (V m c main_v19 : S1x128.Idx → Elt F .f32)
    = shapeCast S1x128 (m ((c : Thread nD τ).loc main_arg4) : S128.Idx → Elt F .f32) shapeCasts_S128_S1x128 := by
  dsimp only [V, hostOps0]
  after_results
  rfl

/-- The region's sixth operand is the neighbour bias as a row. -/
theorem found_bias_neigh (c : Dev nD) : (V m c main_v20 : S1x128.Idx → Elt F .f32)
    = shapeCast S1x128 (m ((c : Thread nD τ).loc main_arg6) : S128.Idx → Elt F .f32) shapeCasts_S128_S1x128 := by
  dsimp only [V, hostOps0]
  after_results
  rfl

end Cert.KernelIdeal.HostPrefix

end
-- ==== Proof.KernelBlocks.lean ====
/-
  The kernel's grid and its input blocks as rows of the arrays.

  The grid has 25 points.  Point `t` stages rows `2000·t … 2000·t + 1999` of the features and of the neighbour
  means, both weight matrices whole and both bias rows whole: entry `(p, k)` of a staged feature or mean block is
  the array's entry `(2000·t + p, k)`, a staged weight matrix is the weight matrix, and entry `(0, q)` of a staged
  bias row is the bias vector at `q`.
-/
import proofs.«139336_j15977278341798_1_alg».proof.Proof.Gen.KernelIdeal.Value
import proofs.«139336_j15977278341798_1_alg».proof.Proof.HostPrefix
import Idealize.ShloMosaic.Lib.Pipeline.Value
import Idealize.ShloMosaic.Lib.ValueIdx

noncomputable section

namespace Cert.KernelIdeal.KernelBlocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The printed index maps over the 25 points: the feature and mean blocks move with the output block along the
    rows, every other block index is zero, and the output's row-block index is at most 24. -/
theorem index_maps : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 24 ∧ win0_6.index t (1 : Fin 2) = 0 :=
  (by decide +kernel : ∀ t : Fin grid0.N, _)

/-- Every one of the 25 row blocks is some point's. -/
theorem point_of_block : ∀ b : Fin 25, ∃ t : Fin cfg0.N, win0_6.index t = ![b.val, 0] :=
  (by decide +kernel : ∀ b : Fin 25, ∃ t : Fin grid0.N, win0_6.index t = ![b.val, 0])

/-! ## Each input block as rows of its array -/

/-- Row `p` of point `t`'s feature block is row `2000·(block index) + p` of the launched features. -/
theorem feat_block (c : Dev nD) (t : Fin cfg0.N) (p : Fin 2000) (k : Fin 128) (r : Fin 50000)
    (hr : r.val = win0_6.index t (0 : Fin 2) * 2000 + p.val) :
    (iblk m c 0 t : Vec Ideal S2000x128 .f32) (ix2 p k)
      = (m ((c : Thread nD τ).loc main_arg0) : S50000x128.Idx → Ideal .f32) (ix2 r k) := by
  obtain ⟨e0, e1, -⟩ := index_maps t
  show V m c main_arg0 (((cfg0.win 0).blk t).view.emb (ix2 p k)) = _
  refine (congrFun (V_main_arg0 m c) _).trans (congrArg _ ?_)
  funext a
  apply Fin.ext
  match a with
  | ⟨0, _⟩ => show win0_0.index t (0 : Fin 2) * 2000 + 1 * p.val = r.val; omega
  | ⟨1, _⟩ => show win0_0.index t (1 : Fin 2) * 128 + 1 * k.val = k.val; omega

/-- The window of the neighbour means stages the array the host computed (the host lemma, at the window's own
    reference to that array). -/
theorem mean_array (c : Dev nD) : V m c (Pipeline.arrRef spec0 1)
    = HostPrefix.neighbourMean (F := Ideal) (m ((c : Thread nD τ).loc main_arg0)) (m ((c : Thread nD τ).loc main_arg1))
        (m ((c : Thread nD τ).loc main_arg2)) :=
  HostPrefix.found_mean m c

/-- Row `p` of point `t`'s block of neighbour means is row `2000·(block index) + p` of the means the host computed. -/
theorem mean_block (c : Dev nD) (t : Fin cfg0.N) (p : Fin 2000) (k : Fin 128) (r : Fin 50000)
    (hr : r.val = win0_6.index t (0 : Fin 2) * 2000 + p.val) :
    (iblk m c 1 t : Vec Ideal S2000x128 .f32) (ix2 p k)
      = HostPrefix.neighbourMean (F := Ideal) (m ((c : Thread nD τ).loc main_arg0)) (m ((c : Thread nD τ).loc main_arg1))
          (m ((c : Thread nD τ).loc main_arg2)) (ix2 r k) := by
  obtain ⟨-, -, e0, e1, -⟩ := index_maps t
  have he : ((cfg0.win 1).blk t).view.emb (ix2 p k) = ix2 r k := by
    funext a
    apply Fin.ext
    match a with
    | ⟨0, _⟩ => show win0_1.index t (0 : Fin 2) * 2000 + 1 * p.val = r.val; omega
    | ⟨1, _⟩ => show win0_1.index t (1 : Fin 2) * 128 + 1 * k.val = k.val; omega
  unfold iblk
  rw [View.read_apply, mean_array m c, he]
  exact cast_eq _ _

/-- The self weight matrix is staged whole at every point. -/
theorem weight_self_block (c : Dev nD) (t : Fin cfg0.N) (q k : Fin 128) :
    (iblk m c 2 t : Vec Ideal S128x128 .f32) (ix2 q k)
      = (m ((c : Thread nD τ).loc main_arg3) : S128x128.Idx → Ideal .f32) (ix2 q k) := by
  obtain ⟨-, -, -, -, e0, e1, -⟩ := index_maps t
  show V m c main_arg3 (((cfg0.win 2).blk t).view.emb (ix2 q k)) = _
  refine (congrFun (V_main_arg3 m c) _).trans (congrArg _ ?_)
  funext a
  apply Fin.ext
  match a with
  | ⟨0, _⟩ => show win0_2.index t (0 : Fin 2) * 128 + 1 * q.val = q.val; omega
  | ⟨1, _⟩ => show win0_2.index t (1 : Fin 2) * 128 + 1 * k.val = k.val; omega

/-- The neighbour weight matrix is staged whole at every point. -/
theorem weight_neigh_block (c : Dev nD) (t : Fin cfg0.N) (q k : Fin 128) :
    (iblk m c 4 t : Vec Ideal S128x128 .f32) (ix2 q k)
      = (m ((c : Thread nD τ).loc main_arg5) : S128x128.Idx → Ideal .f32) (ix2 q k) := by
  obtain ⟨-, -, -, -, -, -, -, -, e0, e1, -⟩ := index_maps t
  show V m c main_arg5 (((cfg0.win 4).blk t).view.emb (ix2 q k)) = _
  refine (congrFun (V_main_arg5 m c) _).trans (congrArg _ ?_)
  funext a
  apply Fin.ext
  match a with
  | ⟨0, _⟩ => show win0_4.index t (0 : Fin 2) * 128 + 1 * q.val = q.val; omega
  | ⟨1, _⟩ => show win0_4.index t (1 : Fin 2) * 128 + 1 * k.val = k.val; omega

/-- The self bias row is staged whole at every point; its entry `(0, q)` is the bias vector at `q`. -/
theorem bias_self_block (c : Dev nD) (t : Fin cfg0.N) (q : Fin 128) :
    (iblk m c 3 t : Vec Ideal S1x128 .f32) (ix2 0 q)
      = (m ((c : Thread nD τ).loc main_arg4) : S128.Idx → Ideal .f32) (ix1 q) := by
  obtain ⟨-, -, -, -, -, -, e0, e1, -⟩ := index_maps t
  show V m c main_v19 (((cfg0.win 3).blk t).view.emb (ix2 0 q)) = _
  have he : ((cfg0.win 3).blk t).view.emb (ix2 (0 : Fin 1) q) = ix2 (0 : Fin 1) q := by
    funext a
    apply Fin.ext
    match a with
    | ⟨0, _⟩ => show win0_3.index t (0 : Fin 2) * 1 + 1 * 0 = 0; omega
    | ⟨1, _⟩ => show win0_3.index t (1 : Fin 2) * 128 + 1 * q.val = q.val; omega
  rw [he]
  exact (congrFun (HostPrefix.found_bias_self m c) _).trans (HostPrefix.row_of_vector _ q)

/-- The neighbour bias row likewise. -/
theorem bias_neigh_block (c : Dev nD) (t : Fin cfg0.N) (q : Fin 128) :
    (iblk m c 5 t : Vec Ideal S1x128 .f32) (ix2 0 q)
      = (m ((c : Thread nD τ).loc main_arg6) : S128.Idx → Ideal .f32) (ix1 q) := by
  obtain ⟨-, -, -, -, -, -, -, -, -, -, e0, e1, -⟩ := index_maps t
  show V m c main_v20 (((cfg0.win 5).blk t).view.emb (ix2 0 q)) = _
  have he : ((cfg0.win 5).blk t).view.emb (ix2 (0 : Fin 1) q) = ix2 (0 : Fin 1) q := by
    funext a
    apply Fin.ext
    match a with
    | ⟨0, _⟩ => show win0_5.index t (0 : Fin 2) * 1 + 1 * 0 = 0; omega
    | ⟨1, _⟩ => show win0_5.index t (1 : Fin 2) * 128 + 1 * q.val = q.val; omega
  rw [he]
  exact (congrFun (HostPrefix.found_bias_neigh m c) _).trans (HostPrefix.row_of_vector _ q)

end Cert.KernelIdeal.KernelBlocks

end
-- ==== Proof.KernelArray.lean ====
/-
  The whole output array the kernel leaves, from what each grid point writes back.

  Point `t` of the 25 writes back rows `2000·t … 2000·t + 1999` of the output.  Entry `(p, q)` of what it writes is
  the body's stored value on the staged blocks, which, the staged blocks being rows of the arrays, is the layer's
  output at node `2000·t + p`, feature `q`.  The 25 blocks tile the 50000 rows, hence after the run the output
  array is the layer's output of the launched arrays.
-/
import proofs.«139336_j15977278341798_1_alg».proof.Proof.Gen.KernelIdeal.Value
import proofs.«139336_j15977278341798_1_alg».proof.Proof.BlockEntry
import proofs.«139336_j15977278341798_1_alg».proof.Proof.SageSpec
import proofs.«139336_j15977278341798_1_alg».proof.Proof.HostPrefix
import proofs.«139336_j15977278341798_1_alg».proof.Proof.KernelBlocks
import Idealize.ShloMosaic.Lib.Pipeline.Value
import Idealize.ShloMosaic.Lib.ValueIdx

noncomputable section

namespace Cert.KernelIdeal.KernelArray

open Cert.KernelIdeal Cert.KernelIdeal.Gen Cert.KernelIdeal.Value Cert.KernelIdeal.KernelBlocks
open Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The body's stored value at `(p, q)` is the layer's output at `(r, q)` of ANY arrays `X`, `Y`, `Ws`, `Wn`, `bs`,
    `bn` of which the staged blocks are the rows: feature and mean rows `p` of the blocks are rows `r` of `X` and `Y`,
    the staged weight rows `q` are those of `Ws` and `Wn`, the staged bias rows at `(0, q)` are `bs` and `bn` at `q`. -/
theorem entry_is_layer (X Y : FVec Ideal S50000x128 .f32) (Ws Wn : FVec Ideal S128x128 .f32) (bs bn : FVec Ideal S128 .f32)
    (x y : FVec Ideal S2000x128 .f32) (ws wn : FVec Ideal S128x128 .f32) (b1 b2 : FVec Ideal S1x128 .f32)
    (p : Fin 2000) (q : Fin 128) (r : Fin 50000)
    (hx : ∀ k : Fin 128, x (ix2 p k) = X (ix2 r k)) (hy : ∀ k : Fin 128, y (ix2 p k) = Y (ix2 r k))
    (hws : ∀ k : Fin 128, ws (ix2 q k) = Ws (ix2 q k)) (hwn : ∀ k : Fin 128, wn (ix2 q k) = Wn (ix2 q k))
    (hb1 : b1 (ix2 0 q) = bs (ix1 q)) (hb2 : b2 (ix2 0 q) = bn (ix1 q)) :
    k0_pay1 (F := Ideal) x y ws wn b1 b2 (ix2 p q) = Cert.Sage.sageOut X Y Ws bs Wn bn (ix2 r q) := by
  rw [BlockEntry.pay_entry, Cert.Sage.sageOut_ix2]
  unfold Cert.Sage.linEntry
  simp only [hx, hy, hws, hwn, hb1, hb2]

variable (m : (ℓ : Loc nD τ sig) → Buf (Elt Ideal) ℓ) (ρ : Dev nD → PrngReg)

/-- The layer's output of the launched arrays: the features, the neighbour means the host computes from the
    features and the edges, the two weight matrices and the two biases. -/
abbrev layerOut (c : Dev nD) : FVec Ideal S50000x128 .f32 :=
  Cert.Sage.sageOut (m ((c : Thread nD τ).loc main_arg0))
    (HostPrefix.neighbourMean (F := Ideal) (m ((c : Thread nD τ).loc main_arg0)) (m ((c : Thread nD τ).loc main_arg1)) (m ((c : Thread nD τ).loc main_arg2)))
    (m ((c : Thread nD τ).loc main_arg3)) (m ((c : Thread nD τ).loc main_arg4))
    (m ((c : Thread nD τ).loc main_arg5)) (m ((c : Thread nD τ).loc main_arg6))

/-- WHAT POINT `t` WRITES BACK is block `t` of the layer's output. -/
theorem flushed_eq (c : Dev nD) (t : Fin cfg0.N) :
    (dats m 0 c).flushed 6 t = ((cfg0.win 6).blk t).view.read (Elt Ideal) (layerOut m c) := by
  rw [flushed6]
  unfold out0_6
  rw [View.canon_unit_zero hz]
  simp only [View.ld_unit_zero (S := S2000x128) hz, View.ld_unit_zero (S := S128x128) hz, View.ld_unit_zero (S := S1x128) hz]
  obtain ⟨-, -, -, -, -, -, -, -, -, -, -, -, hle, e1⟩ := index_maps t
  funext j
  obtain ⟨p, q, rfl⟩ : ∃ (p : Fin 2000) (q : Fin 128), j = ix2 p q := ⟨j 0, j 1, eq_ix2 j⟩
  have hp : p.val < 2000 := p.isLt
  have hemb : ((cfg0.win 6).blk t).view.emb (ix2 p q)
      = ix2 (⟨win0_6.index t (0 : Fin 2) * 2000 + p.val, by omega⟩ : Fin 50000) q := by
    funext a
    apply Fin.ext
    match a with
    | ⟨0, _⟩ => show win0_6.index t (0 : Fin 2) * 2000 + 1 * p.val = win0_6.index t (0 : Fin 2) * 2000 + p.val; omega
    | ⟨1, _⟩ => show win0_6.index t (1 : Fin 2) * 128 + 1 * q.val = q.val; omega
  show k0_pay1 (F := Ideal) (iblk m c 0 t) (iblk m c 1 t) (iblk m c 2 t) (iblk m c 4 t) (iblk m c 3 t) (iblk m c 5 t) (ix2 p q)
    = layerOut m c (((cfg0.win 6).blk t).view.emb (ix2 p q))
  rw [hemb]
  exact entry_is_layer (m ((c : Thread nD τ).loc main_arg0))
    (HostPrefix.neighbourMean (F := Ideal) (m ((c : Thread nD τ).loc main_arg0)) (m ((c : Thread nD τ).loc main_arg1)) (m ((c : Thread nD τ).loc main_arg2)))
    (m ((c : Thread nD τ).loc main_arg3)) (m ((c : Thread nD τ).loc main_arg5))
    (m ((c : Thread nD τ).loc main_arg4)) (m ((c : Thread nD τ).loc main_arg6))
    (iblk m c 0 t) (iblk m c 1 t) (iblk m c 2 t) (iblk m c 4 t) (iblk m c 3 t) (iblk m c 5 t) p q
    ⟨win0_6.index t (0 : Fin 2) * 2000 + p.val, by omega⟩
    (fun k => feat_block m c t p k _ rfl) (fun k => mean_block m c t p k _ rfl)
    (fun k => weight_self_block m c t q k) (fun k => weight_neigh_block m c t q k)
    (bias_self_block m c t q) (bias_neigh_block m c t q)

/-- An index of the output array is in point `t`'s block iff each coordinate is in the block's range on its axis. -/
theorem mem_block (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v21).slice (win0_6.rect t)).set ↔ _
  rw [View.set_slice_whole, Rect.mem_set_unit]
  exact Iff.rfl

/-- Every entry of the output array lies in some point's block: row `r` in the block of point `r / 2000`. -/
theorem every_row_covered (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := point_of_block ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- THE ARRAY after the run is the layer's output. -/
theorem final_array (c : Dev nD) : (dats m 0 c).arrAt 6 cfg0.N = layerOut m c :=
  (dats m 0 c).arrAt_eq_of_cover 6 (layerOut m c) (fun t _ => flushed_eq m c t) every_row_covered

/-- The kernel's run, read: the result array at the layer's output of the launched arrays, the arguments unchanged. -/
theorem run : θ_run defs (onTc (τ := τ) (main (F := Ideal))) ⟨m, fun _ => 0, ρ⟩ fun r => ∀ c : Dev nD,
      r.2.mem ((c : Thread nD τ).loc main_v21) = layerOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_array m c), (h c).2⟩) (run_blocks m ρ)

end Cert.KernelIdeal.KernelArray

end
-- ==== Proof.RefIsLayer.lean ====
/-
  The reference's result is the layer's output.

  The reference computes the neighbour means exactly as the kernel's host prefix does — the same gather, the same two
  scatter-adds, the same division — then, entry by entry, the self term `∑ₖ feat[r,k] · Wsᵀ[k,c] + bs[c]` plus the
  neighbour term `∑ₖ mean[r,k] · Wnᵀ[k,c] + bn[c]`, a transposed weight matrix at `(k, c)` being the weight matrix at
  `(c, k)` and a bias broadcast over the rows reading the bias at `c`.
-/
import proofs.«139336_j15977278341798_1_alg».proof.Proof.Gen.ReferenceIdeal.Read
import proofs.«139336_j15977278341798_1_alg».proof.Proof.SageSpec
import proofs.«139336_j15977278341798_1_alg».proof.Proof.HostPrefix
import Idealize.ShloMosaic.Lib.ValueIdx

noncomputable section

namespace Cert.ReferenceIdeal.RefIsLayer

open Cert.ReferenceIdeal Cert.ReferenceIdeal.Read Idealize.ShloMosaic Idealize.ShloMosaic.ValueIdx

/-- The reference's neighbour means are the kernel's: one and the same composition of host operations. -/
theorem mean_same (feat : FVec Ideal S50000x128 .f32) (src dst : IVec S1600000 32) :
    val_main_v18 (F := Ideal) feat src dst = Cert.KernelIdeal.HostPrefix.neighbourMean (F := Ideal) feat src dst := rfl

theorem lhs_row (r : Fin 50000) (c k : Fin 128) : lidx_main_v25 (ix2 r c) k = ix2 r k :=
  funext fun a => Fin.ext (by match a with | ⟨0, _⟩ => rfl | ⟨1, _⟩ => rfl)
theorem lhs_row' (r : Fin 50000) (c k : Fin 128) : lidx_main_v20 (ix2 r c) k = ix2 r k :=
  funext fun a => Fin.ext (by match a with | ⟨0, _⟩ => rfl | ⟨1, _⟩ => rfl)
theorem weight_row (r : Fin 50000) (c k : Fin 128) : idx_main_v24 (ridx_main_v25 (ix2 r c) k) = ix2 c k :=
  funext fun a => Fin.ext (by match a with | ⟨0, _⟩ => rfl | ⟨1, _⟩ => rfl)
theorem weight_row' (r : Fin 50000) (c k : Fin 128) : idx_main_v19 (ridx_main_v20 (ix2 r c) k) = ix2 c k :=
  funext fun a => Fin.ext (by match a with | ⟨0, _⟩ => rfl | ⟨1, _⟩ => rfl)
theorem bias_at (r : Fin 50000) (c : Fin 128) : idx_main_v26 (idx_main_v27 (ix2 r c)) = ix1 c :=
  funext fun a => Fin.ext (by match a with | ⟨0, _⟩ => rfl)
theorem bias_at' (r : Fin 50000) (c : Fin 128) : idx_main_v21 (idx_main_v22 (ix2 r c)) = ix1 c :=
  funext fun a => Fin.ext (by match a with | ⟨0, _⟩ => rfl)

/-- The reference's result array is the layer's output of its arguments, the means being its own host term. -/
theorem result_is_layer (feat : FVec Ideal S50000x128 .f32) (src dst : IVec S1600000 32)
    (Ws : FVec Ideal S128x128 .f32) (bs : FVec Ideal S128 .f32) (Wn : FVec Ideal S128x128 .f32) (bn : FVec Ideal S128 .f32) :
    val_main_v29 (F := Ideal) feat src dst Ws bs Wn bn
      = Cert.Sage.sageOut feat (val_main_v18 (F := Ideal) feat src dst) Ws bs Wn bn := by
  funext i
  obtain ⟨r, c, rfl⟩ : ∃ (r : Fin 50000) (c : Fin 128), i = ix2 r c := ⟨i 0, i 1, eq_ix2 i⟩
  rw [val_main_v29_apply, val_main_v28_apply, val_main_v23_apply, val_main_v25_apply, val_main_v27_apply,
    val_main_v26_apply, val_main_v20_apply, val_main_v22_apply, val_main_v21_apply]
  simp only [val_main_v24_apply, val_main_v19_apply, lhs_row, lhs_row', weight_row, weight_row', bias_at, bias_at',
    Ideal.addf_def]
  rfl

end Cert.ReferenceIdeal.RefIsLayer

end
-- ==== Proof.lean ====
/-
  A GraphSAGE layer with the mean aggregator: the kernel against its jnp reference, over the extended reals.

  Both programs compute the neighbour means on the host, by the same operations: the feature rows of the edges'
  source nodes are gathered, added up per destination node, and divided by the number of arrivals (at least one).
  The kernel then runs a grid of 25 points over blocks of 2000 nodes; at each point it multiplies the block of
  features by the transposed self weights and the block of means by the transposed neighbour weights (into zero
  accumulators), adds the biases and adds the two terms.  The reference does the same with two whole-array products.
  At the extended reals a product into a zero accumulator and the host's product are both the plain sum over the 128
  input features, so entry `(r, c)` is on both sides

      (∑ₖ feat[r,k] · Ws[c,k] + bs[c])  +  (∑ₖ mean[r,k] · Wn[c,k] + bn[c])

  in this very grouping: no law of the extended reals is needed beyond reading each side, and the precondition is
  never opened.  The 25 blocks tile the 50000 rows, so the kernel's output array is this function of the launched
  arrays (Proof/KernelArray.lean); the reference's result is the same function (Proof/RefIsLayer.lean).  The ideal
  pass rewrote nothing, so `preserves` is `True`.  The three frames are the generated ones, the reference's being
  its run with the result dropped.
-/
import proofs.«139336_j15977278341798_1_alg».proof.Defs
import proofs.«139336_j15977278341798_1_alg».proof.Proof.Gen.Kernel
import proofs.«139336_j15977278341798_1_alg».proof.Proof.Gen.Kernel.Skeleton
import proofs.«139336_j15977278341798_1_alg».proof.Proof.Gen.Kernel.Launch
import proofs.«139336_j15977278341798_1_alg».proof.Proof.Gen.Kernel.Points
import proofs.«139336_j15977278341798_1_alg».proof.Proof.Gen.Kernel.Frame
import proofs.«139336_j15977278341798_1_alg».proof.Proof.Gen.KernelIdeal
import proofs.«139336_j15977278341798_1_alg».proof.Proof.Gen.KernelIdeal.Skeleton
import proofs.«139336_j15977278341798_1_alg».proof.Proof.Gen.KernelIdeal.Launch
import proofs.«139336_j15977278341798_1_alg».proof.Proof.Gen.KernelIdeal.Points
import proofs.«139336_j15977278341798_1_alg».proof.Proof.Gen.KernelIdeal.Frame
import proofs.«139336_j15977278341798_1_alg».proof.Proof.Gen.ReferenceIdeal
import proofs.«139336_j15977278341798_1_alg».proof.Proof.Gen.Pre_finite_inputs
import proofs.«139336_j15977278341798_1_alg».proof.Proof.Gen.KernelIdeal.Value
import proofs.«139336_j15977278341798_1_alg».proof.Proof.Gen.ReferenceIdeal.Run
import proofs.«139336_j15977278341798_1_alg».proof.Proof.Gen.ReferenceIdeal.Read
import proofs.«139336_j15977278341798_1_alg».proof.Proof.KernelArray
import proofs.«139336_j15977278341798_1_alg».proof.Proof.RefIsLayer
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the seven arguments, both programs end with the layer's output of those arguments:
    the kernel's array by its 25 blocks, the reference's by reading its operations at an entry; the two neighbour
    means are one host term. -/
theorem algebraic : Cert.algebraic_KernelIdeal_ReferenceIdeal := by
  intro m ρ m' ρ' _ hagree
  refine ⟨fun c => Cert.KernelIdeal.KernelArray.layerOut m c, Cert.KernelIdeal.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  refine (Cert.ReferenceIdeal.Read.val_main_v29_eq (F := Ideal) _ _ _ _ _ _ _).trans ?_
  rw [Cert.ReferenceIdeal.RefIsLayer.result_is_layer, Cert.ReferenceIdeal.RefIsLayer.mean_same, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
